-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x16384 : Shape := ⟨2, ![4096, 16384]⟩
abbrev S16384 : Shape := ⟨1, ![16384]⟩
abbrev S_ : Shape := ⟨0, ![]⟩

class Facts : Prop where
  bcast_S_S4096x16384 : S_.BroadcastsInDim S4096x16384 (![] : Fin 0 → Fin S4096x16384.rank)
  reducesTo_S4096x16384_S_d0_1 : S4096x16384.ReducesTo [0, 1] S_
  h_S_ : 0 < S_.numel
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S4096x16384 .f32) (main_arg1 : FVec F S16384 .f32) : IVec S_ 1 :=
  let main_v0 : FVec F S4096x16384 .f32 := Host.absf main_arg0
  let main_cst : FVec F S_ .f32 := constant S_ .f32 0x7F800000#32
  let main_v1 : FVec F S4096x16384 .f32 := broadcastInDim S4096x16384 ![] bcast_S_S4096x16384 main_cst
  let main_v2 : IVec S4096x16384 1 := cmpf .olt main_v0 main_v1
  let main_c : IVec S_ 1 := constantI S_ 1 1#1
  let main_v3 : IVec S_ 1 := (fun x v => Host.reduce IntOp.andi x v reducesTo_S4096x16384_S_d0_1 h_S_) main_v2 main_c
  let main_v4 : FVec F S16384 .f32 := Host.absf main_arg1
  let main_cst_0 : FVec F S_ .f32 := constant S_ .f32 0x7F800000#32
  let main_v5 : FVec F S16384 .f32 := broadcastInDim S16384 ![] bcast_S_S16384 main_cst_0
  let main_v6 : IVec S16384 1 := cmpf .olt main_v4 main_v5
  let main_c_1 : IVec S_ 1 := constantI S_ 1 1#1
  let main_v7 : IVec S_ 1 := (fun x v => Host.reduce IntOp.andi x v reducesTo_S16384_S_d0 h_S_) main_v6 main_c_1
  let main_v8 : IVec S_ 1 := andi main_v3 main_v7
  main_v8
-- ==== Kernel.lean ====
abbrev S4096x16384 : Shape := ⟨2, ![4096, 16384]⟩
abbrev S16384 : Shape := ⟨1, ![16384]⟩
abbrev S1x16384 : Shape := ⟨2, ![1, 16384]⟩
abbrev S64x16384 : Shape := ⟨2, ![64, 16384]⟩

abbrev nBuf : Space → Nat
  | .hbm => 4
  | .vmem => 5
  | .smem => 0
  | _ => 0

abbrev bufTy : (tb : Table) → Fin (tcTables nBuf tb) → BufTy
  | .hbm, ⟨0, _⟩ => ⟨S4096x16384, .f32⟩
  | .hbm, ⟨1, _⟩ => ⟨S16384, .f32⟩
  | .hbm, ⟨2, _⟩ => ⟨S1x16384, .f32⟩
  | .hbm, ⟨3, _⟩ => ⟨S4096x16384, .f32⟩
  | .local _ .vmem, ⟨0, _⟩ => ⟨S64x16384, .f32⟩
  | .local _ .vmem, ⟨1, _⟩ => ⟨S64x16384, .f32⟩
  | .local _ .vmem, ⟨2, _⟩ => ⟨S1x16384, .f32⟩
  | .local _ .vmem, ⟨3, _⟩ => ⟨S64x16384, .f32⟩
  | .local _ .vmem, ⟨4, _⟩ => ⟨S64x16384, .f32⟩
  | _, _ => ⟨S4096x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x16384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x16384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S16384_S1x16384 : S16384.ShapeCasts S1x16384
  inb_S64x16384_S64x16384_0_0 : ∀ a, (![0, 0] : Fin 2 → Nat) a + S64x16384.size a ≤ S64x16384.size a
  h_S64x16384 : 0 < S64x16384.numel
  inb_S1x16384_S1x16384_0_0 : ∀ a, (![0, 0] : Fin 2 → Nat) a + S1x16384.size a ≤ S1x16384.size a
  h_S1x16384 : 0 < S1x16384.numel
  shapeCasts_S1x16384_S1x16384 : S1x16384.ShapeCasts S1x16384
  broadcasts_S1x16384_S64x16384 : S1x16384.Broadcasts S64x16384
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x16384.size a ≤ S4096x16384.size a
  hwx0_0 : ∀ i : grid0.Coords, EltTy.bits .f32 = 32 ∨ (Rect.block (s := S4096x16384) S64x16384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x16384.size a ≤ S1x16384.size a
  hwx0_1 : ∀ i : grid0.Coords, EltTy.bits .f32 = 32 ∨ (Rect.block (s := S1x16384) S1x16384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x16384.size a ≤ S4096x16384.size a
  hwx0_2 : ∀ i : grid0.Coords, EltTy.bits .f32 = 32 ∨ (Rect.block (s := S4096x16384) S64x16384.size (cc0_transform_2 i) (hinb0_2 i)).WholeWords (EltTy.packing .f32)

variable [Facts₀]

abbrev win0_0 : Pipeline.Window sig grid0 :=
  Pipeline.Window.ofSpec (Memref.whole main_arg0) S64x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x16384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S64x16384.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x16384 : Shape := ⟨2, ![4096, 16384]⟩
abbrev S16384 : Shape := ⟨1, ![16384]⟩
abbrev S_ : Shape := ⟨0, ![]⟩

abbrev nBuf : Space → Nat
  | .hbm => 62
  | .vmem => 0
  | .smem => 0
  | _ => 0

abbrev bufTy : (tb : Table) → Fin (tcTables nBuf tb) → BufTy
  | .hbm, ⟨0, _⟩ => ⟨S4096x16384, .f32⟩
  | .hbm, ⟨1, _⟩ => ⟨S16384, .f32⟩
  | .hbm, ⟨2, _⟩ => ⟨S4096x16384, .f32⟩
  | .hbm, ⟨3, _⟩ => ⟨S_, .f32⟩
  | .hbm, ⟨4, _⟩ => ⟨S4096x16384, .f32⟩
  | .hbm, ⟨5, _⟩ => ⟨S4096x16384, .i1⟩
  | .hbm, ⟨6, _⟩ => ⟨S_, .f32⟩
  | .hbm, ⟨7, _⟩ => ⟨S_, .f32⟩
  | .hbm, ⟨8, _⟩ => ⟨S4096x16384, .f32⟩
  | .hbm, ⟨9, _⟩ => ⟨S4096x16384, .f32⟩
  | .hbm, ⟨10, _⟩ => ⟨S_, .f32⟩
  | .hbm, ⟨11, _⟩ => ⟨S_, .f32⟩
  | .hbm, ⟨12, _⟩ => ⟨S4096x16384, .f32⟩
  | .hbm, ⟨13, _⟩ => ⟨S4096x16384, .f32⟩
  | .hbm, ⟨14, _⟩ => ⟨S_, .f32⟩
  | .hbm, ⟨15, _⟩ => ⟨S4096x16384, .f32⟩
  | .hbm, ⟨16, _⟩ => ⟨S4096x16384, .i1⟩
  | .hbm, ⟨17, _⟩ => ⟨S_, .f32⟩
  | .hbm, ⟨18, _⟩ => ⟨S_, .f32⟩
  | .hbm, ⟨19, _⟩ => ⟨S4096x16384, .f32⟩
  | .hbm, ⟨20, _⟩ => ⟨S4096x16384, .f32⟩
  | .hbm, ⟨21, _⟩ => ⟨S_, .f32⟩
  | .hbm, ⟨22, _⟩ => ⟨S4096x16384, .f32⟩
  | .hbm, ⟨23, _⟩ => ⟨S4096x16384, .f32⟩
  | .hbm, ⟨24, _⟩ => ⟨S_, .f32⟩
  | .hbm, ⟨25, _⟩ => ⟨S4096x16384, .f32⟩
  | .hbm, ⟨26, _⟩ => ⟨S4096x16384, .i1⟩
  | .hbm, ⟨27, _⟩ => ⟨S_, .f32⟩
  | .hbm, ⟨28, _⟩ => ⟨S_, .f32⟩
  | .hbm, ⟨29, _⟩ => ⟨S4096x16384, .f32⟩
  | .hbm, ⟨30, _⟩ => ⟨S4096x16384, .f32⟩
  | .hbm, ⟨31, _⟩ => ⟨S_, .f32⟩
  | .hbm, ⟨32, _⟩ => ⟨S4096x16384, .f32⟩
  | .hbm, ⟨33, _⟩ => ⟨S4096x16384, .i1⟩
  | .hbm, ⟨34, _⟩ => ⟨S4096x16384, .f32⟩
  | .hbm, ⟨35, _⟩ => ⟨S_, .f32⟩
  | .hbm, ⟨36, _⟩ => ⟨S4096x16384, .f32⟩
  | .hbm, ⟨37, _⟩ => ⟨S4096x16384, .f32⟩
  | .hbm, ⟨38, _⟩ => ⟨S4096x16384, .f32⟩
  | .hbm, ⟨39, _⟩ => ⟨S_, .f32⟩
  | .hbm, ⟨40, _⟩ => ⟨S4096x16384, .f32⟩
  | .hbm, ⟨41, _⟩ => ⟨S4096x16384, .f32⟩
  | .hbm, ⟨42, _⟩ => ⟨S4096x16384, .f32⟩
  | .hbm, ⟨43, _⟩ => ⟨S4096x16384, .f32⟩
  | .hbm, ⟨44, _⟩ => ⟨S_, .f32⟩
  | .hbm, ⟨45, _⟩ => ⟨S4096x16384, .f32⟩
  | .hbm, ⟨46, _⟩ => ⟨S4096x16384, .i1⟩
  | .hbm, ⟨47, _⟩ => ⟨S4096x16384, .f32⟩
  | .hbm, ⟨48, _⟩ => ⟨S4096x16384, .f32⟩
  | .hbm, ⟨49, _⟩ => ⟨S4096x16384, .f32⟩
  | .hbm, ⟨50, _⟩ => ⟨S4096x16384, .f32⟩
  | .hbm, ⟨51, _⟩ => ⟨S_, .f32⟩
  | .hbm, ⟨52, _⟩ => ⟨S4096x16384, .f32⟩
  | .hbm, ⟨53, _⟩ => ⟨S4096x16384, .f32⟩
  | .hbm, ⟨54, _⟩ => ⟨S4096x16384, .f32⟩
  | .hbm, ⟨55, _⟩ => ⟨S_, .f32⟩
  | .hbm, ⟨56, _⟩ => ⟨S4096x16384, .f32⟩
  | .hbm, ⟨57, _⟩ => ⟨S4096x16384, .f32⟩
  | .hbm, ⟨58, _⟩ => ⟨S4096x16384, .f32⟩
  | .hbm, ⟨59, _⟩ => ⟨S4096x16384, .f32⟩
  | .hbm, ⟨60, _⟩ => ⟨S4096x16384, .f32⟩
  | .hbm, ⟨61, _⟩ => ⟨S4096x16384, .f32⟩
  | _, _ => ⟨S4096x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_v3 : Ref sig .tc := ⟨.hbm, 9, rfl⟩
abbrev main_cst_1 : Ref sig .tc := ⟨.hbm, 10, rfl⟩
abbrev main_call1_v0 : Ref sig .tc := ⟨.hbm, 11, rfl⟩
abbrev main_call1_v1 : Ref sig .tc := ⟨.hbm, 12, rfl⟩
abbrev main_v4 : Ref sig .tc := ⟨.hbm, 13, rfl⟩
abbrev main_cst_2 : Ref sig .tc := ⟨.hbm, 14, rfl⟩
abbrev main_v5 : Ref sig .tc := ⟨.hbm, 15, rfl⟩
abbrev main_v6 : Ref sig .tc := ⟨.hbm, 16, rfl⟩
abbrev main_cst_3 : Ref sig .tc := ⟨.hbm, 17, rfl⟩
abbrev main_call2_v0 : Ref sig .tc := ⟨.hbm, 18, rfl⟩
abbrev main_call2_v1 : Ref sig .tc := ⟨.hbm, 19, rfl⟩
abbrev main_v7 : Ref sig .tc := ⟨.hbm, 20, rfl⟩
abbrev main_cst_4 : Ref sig .tc := ⟨.hbm, 21, rfl⟩
abbrev main_v8 : Ref sig .tc := ⟨.hbm, 22, rfl⟩
abbrev main_v9 : Ref sig .tc := ⟨.hbm, 23, rfl⟩
abbrev main_cst_5 : Ref sig .tc := ⟨.hbm, 24, rfl⟩
abbrev main_v10 : Ref sig .tc := ⟨.hbm, 25, rfl⟩
abbrev main_v11 : Ref sig .tc := ⟨.hbm, 26, rfl⟩
abbrev main_cst_6 : Ref sig .tc := ⟨.hbm, 27, rfl⟩
abbrev main_call3_v0 : Ref sig .tc := ⟨.hbm, 28, rfl⟩
abbrev main_call3_v1 : Ref sig .tc := ⟨.hbm, 29, rfl⟩
abbrev main_v12 : Ref sig .tc := ⟨.hbm, 30, rfl⟩
abbrev main_cst_7 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_8 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_9 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_10 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_11 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_12 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩

abbrev nD : Nat := 1
abbrev τ : Topo := Topo.v7x

variable {F : FTy → Type} [FloatOps F]

class Facts₀ : Prop where
  bcast_S16384_S4096x16384_1 : S16384.BroadcastsInDim S4096x16384 (![1] : Fin 1 → Fin S4096x16384.rank)
  bcast_S_S4096x16384 : S_.BroadcastsInDim S4096x16384 (![] : Fin 0 → Fin S4096x16384.rank)

variable [Facts₀]

class Facts : Prop extends Facts₀ where

variable [Facts]
-- ==== Proof.YeoJohnson.lean ====
/-
  The Yeo–Johnson power transform, one entry at a time.

  For an entry `x` and its column's parameter `λ` the transform is
      x ≥ 0, λ ≠ 0 :  ((1 + x)^λ − 1) / λ               x ≥ 0, λ = 0 :  log (1 + x)
      x < 0, λ ≠ 2 :  −((1 − x)^(2−λ) − 1) / (2 − λ)     x < 0, λ = 2 :  −log (1 − x)
  (`yj` below, on the reals).

  Two spellings of it meet here, each as a function of one entry and one parameter, generic in the
  float instance:

  * `kern`: with `e = λ` for `x ≥ 0` and `e = 2 − λ` for `x < 0`, and `L = log1p |x|`, the magnitude
    is `L` when `e = 0` and `(exp (e · L) − 1) / e` otherwise, and the result carries the sign of `x`
    (`0 − magnitude` for `x < 0`): one logarithm and one exponential for both signs.
  * `ref`: the two branches written out with a power, `x` clamped to `0` on the branch that does not
    use it, and the divisors replaced by `1` where they vanish.

  On the extended reals both are `yj` at every pair of REAL arguments (`kern_coe`, `ref_coe`): the
  base `1 + |x|` is positive, so the power is `exp (log (1 + |x|) · e)` (`Real.rpow_def_of_pos`), the
  logarithm of `1 + |x|` is the real one, and every divisor that is used is a nonzero real. At an
  infinite argument the two spellings need not agree (the power and the exponential have different
  conventions there), which is why the law is stated at reals only.
-/
import Idealize.ShloMosaic.PureOps.Ideal
import Idealize.ShloMosaic.PureOps.Ideal.Laws
import Idealize.ShloMosaic.Lib.IdealHost

noncomputable section

namespace Cert.YeoJohnson

open Idealize.ShloMosaic

/-! ## The two spellings, at any float instance -/

section Generic
variable {F : FTy → Type} [FloatOps F]

/-- The exponent the sign of `a` selects: `b` for `a ≥ 0`, `2 − b` for `a < 0`. -/
def expo (a b : F .f32) : F .f32 :=
  Scalar.select (FloatOps.cmpf .oge a (Scalar.ofBits .f32 0x00000000#32)) b
    (FloatOps.subf (Scalar.ofBits .f32 0x40000000#32) b)

/-- `log1p |a|`: the logarithm both signs share. -/
def logMag (a : F .f32) : F .f32 := FloatOps.log1p (FloatOps.absf a)

/-- The transform's magnitude: `log1p |a|` at exponent zero, else `(exp (e · log1p |a|) − 1) / e`, the
    divisor replaced by `1` where it is zero (a value the selection then discards). -/
def mag (a b : F .f32) : F .f32 :=
  Scalar.select (FloatOps.cmpf .oeq (expo a b) (Scalar.ofBits .f32 0x00000000#32)) (logMag a)
    (FloatOps.divf
      (FloatOps.subf (FloatOps.exp (FloatOps.mulf (expo a b) (logMag a))) (Scalar.ofBits .f32 0x3F800000#32))
      (Scalar.select (FloatOps.cmpf .oeq (expo a b) (Scalar.ofBits .f32 0x00000000#32))
        (Scalar.ofBits .f32 0x3F800000#32) (expo a b)))

/-- The one-logarithm, one-exponential spelling: the magnitude with the sign of `a`. -/
def kern (a b : F .f32) : F .f32 :=
  Scalar.select (FloatOps.cmpf .oge a (Scalar.ofBits .f32 0x00000000#32)) (mag a b)
    (FloatOps.subf (Scalar.ofBits .f32 0x00000000#32) (mag a b))

/-- The two-branch spelling with a power: `xp` / `xn` are `a` clamped to the branch that uses it, the
    divisors `b` and `2 − b` are replaced by `1` where they vanish. -/
def ref (a b : F .f32) : F .f32 :=
  let zero : F .f32 := FloatOps.ofBits .f32 0x00000000#32
  let one : F .f32 := FloatOps.ofBits .f32 0x3F800000#32
  let two : F .f32 := FloatOps.ofBits .f32 0x40000000#32
  let pos : BitVec 1 := FloatOps.cmpf .oge a zero
  let xp : F .f32 := Scalar.select pos a zero
  let xn : F .f32 := Scalar.select pos zero a
  let bSafe : F .f32 := Scalar.select (FloatOps.cmpf .oeq b zero) one b
  let twoM : F .f32 := FloatOps.subf two b
  let twoMSafe : F .f32 := Scalar.select (FloatOps.cmpf .oeq twoM zero) one twoM
  let posOut : F .f32 := Scalar.select (FloatOps.cmpf .oeq b zero) (FloatOps.hostUnary .log1p xp)
    (FloatOps.hostDivf (FloatOps.subf (FloatOps.hostPowf (FloatOps.addf xp one) b) one) bSafe)
  let negOut : F .f32 := Scalar.select (FloatOps.cmpf .oeq b two)
    (FloatOps.hostNegf (FloatOps.hostUnary .log1p (FloatOps.hostNegf xn)))
    (FloatOps.hostDivf
      (FloatOps.hostNegf (FloatOps.subf (FloatOps.hostPowf (FloatOps.addf (FloatOps.hostNegf xn) one) twoM) one))
      twoMSafe)
  Scalar.select pos posOut negOut

end Generic

/-! ## The transform on the reals -/

/-- The Yeo–Johnson transform of the real `x` at the real parameter `l`. -/
def yj (x l : ℝ) : ℝ :=
  if 0 ≤ x then (if l = 0 then Real.log (1 + x) else ((1 + x) ^ l - 1) / l)
  else (if l = 2 then -Real.log (1 - x) else -(((1 - x) ^ (2 - l) - 1) / (2 - l)))

/-! ## The operations on the extended reals, at real arguments -/

/-- A selection on `≥` is an `if` on the order. -/
theorem sel_oge {α : Type} (a b : EReal) (u v : α) :
    Scalar.select (FloatOps.cmpf (F := Ideal) (φ := .f32) .oge a b) u v = if b ≤ a then u else v := by
  show Scalar.select (BitVec.ofBool (decide (b ≤ a))) u v = _
  by_cases h : b ≤ a <;> simp [Scalar.select, h]

/-- A selection on `=` is an `if` on equality. -/
theorem sel_oeq {α : Type} (a b : EReal) (u v : α) :
    Scalar.select (FloatOps.cmpf (F := Ideal) (φ := .f32) .oeq a b) u v = if a = b then u else v := by
  show Scalar.select (BitVec.ofBool (decide (a = b))) u v = _
  by_cases h : a = b <;> simp [Scalar.select, h]

theorem zero_eq : FloatOps.ofBits (F := Ideal) .f32 0x00000000#32 = ((0 : ℝ) : EReal) := by
  rw [Ideal.ofBits_def, Ideal.ofBits_zero_f32, EReal.coe_zero]

theorem one_eq : FloatOps.ofBits (F := Ideal) .f32 0x3F800000#32 = ((1 : ℝ) : EReal) := by
  rw [Ideal.ofBits_def, Ideal.ofBits_one_f32, EReal.coe_one]

/-- The pattern `0x40000000` is the real two. -/
theorem two_eq : FloatOps.ofBits (F := Ideal) .f32 0x40000000#32 = ((2 : ℝ) : EReal) := by
  rw [Ideal.ofBits_def]
  simp [Ideal.ofBits, Ideal.ieee, -EReal.coe_mul]; norm_num

/-- The logarithm of a positive real is the real logarithm. -/
theorem log_pos_coe {r : ℝ} (h : 0 < r) : Ideal.log (r : EReal) = ((Real.log r : ℝ) : EReal) := by
  rw [Ideal.log_coe, if_neg (not_le.mpr h)]

/-- `log1p |x|` at a real `x`. -/
theorem logMag_coe (x : ℝ) : logMag (F := Ideal) (x : EReal) = ((Real.log (1 + |x|) : ℝ) : EReal) := by
  have habs : max (x : EReal) (-(x : EReal)) = ((|x| : ℝ) : EReal) := by
    rw [← EReal.coe_neg]
    rcases le_total 0 x with h | h
    · rw [abs_of_nonneg h, max_eq_left (EReal.coe_le_coe_iff.mpr (by linarith))]
    · rw [abs_of_nonpos h, max_eq_right (EReal.coe_le_coe_iff.mpr (by linarith))]
  show Ideal.log (1 + max (x : EReal) (-(x : EReal))) = _
  rw [habs, ← EReal.coe_one, ← EReal.coe_add, log_pos_coe (by positivity)]

/-- The selected exponent at reals. -/
theorem expo_coe (x l : ℝ) : expo (F := Ideal) (x : EReal) (l : EReal) = (((if 0 ≤ x then l else 2 - l) : ℝ) : EReal) := by
  unfold expo
  rw [sel_oge]
  show (if FloatOps.ofBits (F := Ideal) .f32 0x00000000#32 ≤ (x : EReal) then (l : EReal)
    else FloatOps.ofBits (F := Ideal) .f32 0x40000000#32 - (l : EReal)) = _
  rw [zero_eq, two_eq, ← EReal.coe_sub]
  by_cases h : 0 ≤ x
  · rw [if_pos (EReal.coe_le_coe_iff.mpr h), if_pos h]
  · rw [if_neg (fun h' => h (EReal.coe_le_coe_iff.mp h')), if_neg h]

/-- The magnitude at reals: the real logarithm at exponent zero, else `(exp (e · log) − 1) / e`. -/
theorem mag_coe (x l : ℝ) : mag (F := Ideal) (x : EReal) (l : EReal)
    = (((if (if 0 ≤ x then l else 2 - l) = 0 then Real.log (1 + |x|)
        else (Real.exp ((if 0 ≤ x then l else 2 - l) * Real.log (1 + |x|)) - 1) / (if 0 ≤ x then l else 2 - l)) : ℝ) : EReal) := by
  unfold mag
  rw [sel_oeq, sel_oeq, expo_coe, logMag_coe]
  generalize (if 0 ≤ x then l else 2 - l) = e
  generalize Real.log (1 + |x|) = L
  show (if (e : EReal) = FloatOps.ofBits (F := Ideal) .f32 0x00000000#32 then (L : EReal)
    else Ideal.div (Ideal.exp ((e : EReal) * (L : EReal)) - FloatOps.ofBits (F := Ideal) .f32 0x3F800000#32)
      (if (e : EReal) = FloatOps.ofBits (F := Ideal) .f32 0x00000000#32 then FloatOps.ofBits (F := Ideal) .f32 0x3F800000#32 else (e : EReal))) = _
  rw [zero_eq, one_eq]
  by_cases he : e = 0
  · rw [if_pos (by rw [he]), if_pos he]
  · have he' : ¬ ((e : EReal) = ((0 : ℝ) : EReal)) := fun h => he (EReal.coe_eq_coe_iff.mp h)
    rw [if_neg he', if_neg he', if_neg he, Ideal.div_coe he, ← EReal.coe_mul, Ideal.exp_coe, ← EReal.coe_sub,
      ← EReal.coe_mul]
    congr 1
    field_simp

/-- The one-logarithm spelling is the transform at reals. -/
theorem kern_coe (x l : ℝ) : kern (F := Ideal) (x : EReal) (l : EReal) = ((yj x l : ℝ) : EReal) := by
  unfold kern
  rw [sel_oge, mag_coe]
  show (if FloatOps.ofBits (F := Ideal) .f32 0x00000000#32 ≤ (x : EReal) then _
    else FloatOps.ofBits (F := Ideal) .f32 0x00000000#32 - _) = _
  rw [zero_eq, ← EReal.coe_sub]
  unfold yj
  by_cases h : 0 ≤ x
  · rw [if_pos (EReal.coe_le_coe_iff.mpr h), if_pos h, if_pos h, abs_of_nonneg h]
    by_cases hl : l = 0
    · rw [if_pos hl, if_pos hl]
    · rw [if_neg hl, if_neg hl, Real.rpow_def_of_pos (by linarith), mul_comm]
  · rw [if_neg (fun h' => h (EReal.coe_le_coe_iff.mp h')), if_neg h, if_neg h, abs_of_neg (not_le.mp h)]
    have hx : (1 : ℝ) + -x = 1 - x := by ring
    rw [hx]
    by_cases hl : l = 2
    · have h2 : (2 : ℝ) - l = 0 := by rw [hl]; ring
      rw [if_pos h2, if_pos hl, zero_sub]
    · have h2 : ¬ ((2 : ℝ) - l = 0) := fun h' => hl (by linarith)
      rw [if_neg h2, if_neg hl, Real.rpow_def_of_pos (by linarith [not_le.mp h]), mul_comm, zero_sub]

/-- The two-branch spelling is the transform at reals. -/
theorem ref_coe (x l : ℝ) : ref (F := Ideal) (x : EReal) (l : EReal) = ((yj x l : ℝ) : EReal) := by
  unfold ref yj
  simp only [sel_oge, sel_oeq, zero_eq, one_eq, two_eq, Ideal.hostUnary_log1p_def, Ideal.hostDivf_def,
    Ideal.hostPowf_def, Ideal.hostNegf_def, Ideal.negf_def, Ideal.subf_def, Ideal.addf_def, Ideal.log1p]
  by_cases h : 0 ≤ x
  · have hE : ((0 : ℝ) : EReal) ≤ (x : EReal) := EReal.coe_le_coe_iff.mpr h
    rw [if_pos hE, if_pos hE, if_pos h]
    by_cases hl : l = 0
    · have hlE : (l : EReal) = ((0 : ℝ) : EReal) := by rw [hl]
      rw [if_pos hlE, if_pos hl, ← EReal.coe_one, ← EReal.coe_add, log_pos_coe (by linarith)]
    · have hlE : ¬ ((l : EReal) = ((0 : ℝ) : EReal)) := fun h' => hl (EReal.coe_eq_coe_iff.mp h')
      rw [if_neg hlE, if_neg hlE, if_neg hl, Ideal.div_coe hl, ← EReal.coe_add, Ideal.pow_coe_coe, ← EReal.coe_sub,
        ← EReal.coe_mul, Real.rpow_eq_pow, add_comm x 1]
      congr 1
      field_simp
  · have hE : ¬ (((0 : ℝ) : EReal) ≤ (x : EReal)) := fun h' => h (EReal.coe_le_coe_iff.mp h')
    have hx : 0 < 1 - x := by linarith [not_le.mp h]
    rw [if_neg hE, if_neg hE, if_neg h, ← EReal.coe_neg, ← EReal.coe_add, ← EReal.coe_sub]
    have hb : -x + 1 = 1 - x := by ring
    have hb' : (1 : ℝ) + -x = 1 - x := by ring
    by_cases hl : l = 2
    · have hlE : (l : EReal) = ((2 : ℝ) : EReal) := by rw [hl]
      rw [if_pos hlE, if_pos hl, ← EReal.coe_one, ← EReal.coe_add, hb', log_pos_coe hx, ← EReal.coe_neg]
    · have hlE : ¬ ((l : EReal) = ((2 : ℝ) : EReal)) := fun h' => hl (EReal.coe_eq_coe_iff.mp h')
      have h2 : (2 : ℝ) - l ≠ 0 := fun h' => hl (by linarith)
      have h2E : ¬ (((2 - l : ℝ) : EReal) = ((0 : ℝ) : EReal)) := fun h' => h2 (EReal.coe_eq_coe_iff.mp h')
      rw [if_neg hlE, if_neg h2E, if_neg hl, Ideal.div_coe h2, hb, Ideal.pow_coe_coe, ← EReal.coe_sub, ← EReal.coe_neg,
        ← EReal.coe_mul, Real.rpow_eq_pow]
      congr 1
      field_simp

/-! ## The whole arrays: entry `(r, c)` of the result from entry `(r, c)` of the data and entry `c` of the parameters -/

/-- The parameter entry that array index `(r, c)` reads: `c`. -/
def col (i : (⟨2, ![4096, 16384]⟩ : Shape).Idx) : (⟨1, ![16384]⟩ : Shape).Idx := fun a => match a with
  | ⟨0, _⟩ => ⟨(i 1).val, (i 1).isLt⟩

section Whole
variable {F : FTy → Type} [FloatOps F]

/-- The one-logarithm spelling over the arrays. -/
def whole (X : (⟨2, ![4096, 16384]⟩ : Shape).Idx → F .f32) (lam : (⟨1, ![16384]⟩ : Shape).Idx → F .f32) :
    (⟨2, ![4096, 16384]⟩ : Shape).Idx → F .f32 := fun i => kern (X i) (lam (col i))

/-- The two-branch spelling over the arrays. -/
def wholeRef (X : (⟨2, ![4096, 16384]⟩ : Shape).Idx → F .f32) (lam : (⟨1, ![16384]⟩ : Shape).Idx → F .f32) :
    (⟨2, ![4096, 16384]⟩ : Shape).Idx → F .f32 := fun i => ref (X i) (lam (col i))

end Whole

/-- At real arguments the two spellings agree. -/
theorem ref_eq_kern (x l : ℝ) : ref (F := Ideal) (x : EReal) (l : EReal) = kern (F := Ideal) (x : EReal) (l : EReal) :=
  (ref_coe x l).trans (kern_coe x l).symm

/-- Arrays of reals are transformed alike by the two spellings. -/
theorem wholeRef_eq_whole (X : (⟨2, ![4096, 16384]⟩ : Shape).Idx → EReal) (lam : (⟨1, ![16384]⟩ : Shape).Idx → EReal)
    (hX : ∀ i, ∃ r : ℝ, X i = (r : EReal)) (hl : ∀ j, ∃ r : ℝ, lam j = (r : EReal)) :
    wholeRef (F := Ideal) X lam = whole (F := Ideal) X lam := by
  funext i
  obtain ⟨x, hx⟩ := hX i
  obtain ⟨l, hl⟩ := hl (col i)
  show ref (F := Ideal) (X i) (lam (col i)) = kern (F := Ideal) (X i) (lam (col i))
  rw [hx, hl]
  exact ref_eq_kern x l

end Cert.YeoJohnson

end
-- ==== Proof.KernelArray.lean ====
/-
  The kernel's result array. The grid has 64 points; point `t` stages rows `64·t … 64·t + 63` of the data
  (a block of 64 × 16384 entries) and the whole one-row parameter array, and writes the same rows of the result.
  What the body leaves in the block is, entry by entry, the one-logarithm spelling of the transform
  (`YeoJohnson.kern`) of the staged data entry and of the parameter entry of its column: the generated value leg
  reads the body's layout operations (the row of parameters broadcast down the 64 rows) at an index, and the
  indices it reads at are the block index itself and `(0, column)`. So point `t` writes back block `t` of ONE
  function of the arrays (`flushed_eq`); the 64 blocks tile the 4096 rows (row `r` belongs to point `r / 64`),
  hence the array ends at that function (`final`). The one-row parameter array is the reshape of the parameter
  vector, read at `(0, c)` as entry `c` (`row_apply`).
-/
import proofs.«401256_j62053687493093_3_alg».proof.Proof.Gen.KernelIdeal.Value
import proofs.«401256_j62053687493093_3_alg».proof.Proof.YeoJohnson
import Idealize.ShloMosaic.Lib.Pipeline.Value
import Idealize.ShloMosaic.Lib.StableHlo.Run

set_option maxRecDepth 16384

noncomputable section

namespace Cert.KernelIdeal.Whole

open Cert.KernelIdeal Cert.KernelIdeal.Gen Cert.KernelIdeal.Value Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem hz : (![0, 0] : Fin 2 → Nat) = fun _ => 0 := funext fun a => by fin_cases a <;> rfl

/-- The entry of the one-row parameter array under array index `(r, c)`: `(0, c)`. -/
abbrev rowIdx (i : S4096x16384.Idx) : S1x16384.Idx := fun a => match a with
  | ⟨0, _⟩ => ⟨0, by show 0 < 1; omega⟩
  | ⟨1, _⟩ => ⟨(i 1).val, (i 1).isLt⟩

/-- The result as one function of the data array and the one-row parameter array. -/
abbrev G (X : S4096x16384.Idx → Elt F .f32) (R : S1x16384.Idx → Elt F .f32) : S4096x16384.Idx → Elt F .f32 :=
  fun i => YeoJohnson.kern (X i) (R (rowIdx i))

/-- What the body leaves in the block at block index `y`: the transform of the staged entry `y` at the staged
    parameter `(0, y 1)`. -/
theorem block_apply (P0 : Vec F S64x16384 .f32) (P1 : Vec F S1x16384 .f32) (y : S64x16384.Idx) :
    out0_2 P0 P1 y = YeoJohnson.kern (P0 y) (P1 (ix2_2 y)) := by
  unfold out0_2
  rw [canon2_eq]
  simp only [View.ld_unit_zero (S := S64x16384) hz, View.ld_unit_zero (S := S1x16384) hz]
  have e : ix2_0 y = y := funext fun a => Fin.ext (by match a with | ⟨0, _⟩ => rfl | ⟨1, _⟩ => rfl)
  show YeoJohnson.kern (P0 (ix2_0 y)) (P1 (ix2_2 y)) = _
  rw [e]

/-- The printed index maps over the grid: the data window and the result window move together down the rows, one
    block per point; the parameter window stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Point `t` writes back block `t` of `G` of the arrays as the region finds them. -/
theorem flushed_eq (c : Dev nD) (t : Fin cfg0.N) :
    (dats m 0 c).flushed 2 t = ((cfg0.win 2).blk t).view.read (Elt F) (G (V m c main_arg0) (V m c main_v0)) := by
  rw [flushed2]
  obtain ⟨e0, e1, e2, e3, e4, e5⟩ := idx_facts t
  funext j
  show out0_2 (iblk m c 0 t) (iblk m c 1 t) j = G (V m c main_arg0) (V m c main_v0) (((cfg0.win 2).blk t).view.emb j)
  refine (block_apply (iblk m c 0 t) (iblk m c 1 t) j).trans ?_
  show YeoJohnson.kern (V m c main_arg0 (((cfg0.win 0).blk t).view.emb j)) (V m c main_v0 (((cfg0.win 1).blk t).view.emb (ix2_2 j)))
    = YeoJohnson.kern (V m c main_arg0 (((cfg0.win 2).blk t).view.emb j)) (V m c main_v0 (rowIdx (((cfg0.win 2).blk t).view.emb j)))
  have hj0 : (j 0).val < 64 := (j 0).isLt
  have hj1 : (j 1).val < 16384 := (j 1).isLt
  have h0 : ((cfg0.win 0).blk t).view.emb j = ((cfg0.win 2).blk t).view.emb j := by
    funext a; apply Fin.ext
    match a with
    | ⟨0, _⟩ => show win0_0.index t (0 : Fin 2) * 64 + 1 * (j 0).val = win0_2.index t (0 : Fin 2) * 64 + 1 * (j 0).val; omega
    | ⟨1, _⟩ => show win0_0.index t (1 : Fin 2) * 16384 + 1 * (j 1).val = win0_2.index t (1 : Fin 2) * 16384 + 1 * (j 1).val; omega
  have h1 : ((cfg0.win 1).blk t).view.emb (ix2_2 j) = rowIdx (((cfg0.win 2).blk t).view.emb j) := by
    funext a; apply Fin.ext
    match a with
    | ⟨0, _⟩ => show win0_1.index t (0 : Fin 2) * 1 + 1 * 0 = 0; omega
    | ⟨1, _⟩ => show win0_1.index t (1 : Fin 2) * 16384 + 1 * (j 1).val = win0_2.index t (1 : Fin 2) * 16384 + 1 * (j 1).val; omega
  rw [h0, h1]

/-- An index of the array is in point `t`'s block iff each coordinate is in the block's range on its axis. -/
theorem mem_blk (t : Fin cfg0.N) (i : S4096x16384.Idx) :
    i ∈ ((cfg0.win 2).blk t).view.set ↔ ∀ a : Fin 2, win0_2.index t a * S64x16384.size a ≤ (i a).val ∧ (i a).val < win0_2.index t a * S64x16384.size a + S64x16384.size a := by
  show i ∈ ((View.whole main_v1).slice (win0_2.rect t)).set ↔ _
  rw [View.set_slice_whole, Rect.mem_set_unit]
  exact Iff.rfl

/-- The blocks tile the array: row `r` is in the block of point `r / 64`. -/
theorem cover (i : S4096x16384.Idx) : ∃ t : Fin cfg0.N, (cfg0.win 2).flush t = true ∧ i ∈ ((cfg0.win 2).blk t).view.set := by
  have hi0 : (i 0).val < 4096 := (i 0).isLt
  have hi1 : (i 1).val < 16384 := (i 1).isLt
  have hN : (i 0).val / 64 < cfg0.N := by rw [show cfg0.N = 64 from N_0]; omega
  obtain ⟨e0, e1, e2, e3, e4, e5⟩ := idx_facts ⟨(i 0).val / 64, hN⟩
  have e4' : win0_2.index ⟨(i 0).val / 64, hN⟩ (0 : Fin 2) = (i 0).val / 64 := e4
  refine ⟨⟨(i 0).val / 64, hN⟩, flush0_2 _, ?_⟩
  rw [mem_blk]
  intro a
  match a with
  | ⟨0, _⟩ => show win0_2.index ⟨(i 0).val / 64, hN⟩ (0 : Fin 2) * 64 ≤ (i 0).val ∧ (i 0).val < win0_2.index ⟨(i 0).val / 64, hN⟩ (0 : Fin 2) * 64 + 64; omega
  | ⟨1, _⟩ => show win0_2.index ⟨(i 0).val / 64, hN⟩ (1 : Fin 2) * 16384 ≤ (i 1).val ∧ (i 1).val < win0_2.index ⟨(i 0).val / 64, hN⟩ (1 : Fin 2) * 16384 + 16384; omega

/-- The array after the run: `G` of the arrays as the region finds them. -/
theorem final (c : Dev nD) : (dats m 0 c).arrAt 2 cfg0.N = G (V m c main_arg0) (V m c main_v0) :=
  (dats m 0 c).arrAt_eq_of_cover 2 (G (V m c main_arg0) (V m c main_v0)) (fun t _ => flushed_eq m c t) cover

/-- The one-row parameter array the region finds is the parameter vector, reshaped. -/
theorem row_eq (c : Dev nD) : (V m c main_v0 : S1x16384.Idx → Elt F .f32)
    = shapeCast S1x16384 (m ((c : Thread nD τ).loc main_arg1) : S16384.Idx → Elt F .f32) shapeCasts_S16384_S1x16384 := by
  dsimp only [V, hostOps0]; after_results; rfl

/-- Its entry `(0, c)` is entry `c` of the vector. -/
theorem row_apply (c : Dev nD) (i : S4096x16384.Idx) :
    V m c main_v0 (rowIdx i) = (m ((c : Thread nD τ).loc main_arg1) : S16384.Idx → Elt F .f32) (YeoJohnson.col i) := by
  rw [row_eq]
  refine shapeCast_apply _ _ (rowIdx i) (YeoJohnson.col i) ?_
  rw [Shape.rowMajor_val_two, Shape.rowMajor_val_one]
  show (i 1).val = 0 * 16384 + (i 1).val
  omega

/-- The array after the run is the transform of the argument arrays. -/
theorem final_args (c : Dev nD) : (dats m 0 c).arrAt 2 cfg0.N
    = YeoJohnson.whole (m ((c : Thread nD τ).loc main_arg0)) (m ((c : Thread nD τ).loc main_arg1)) := by
  rw [final]
  funext i
  show YeoJohnson.kern (V m c main_arg0 i) (V m c main_v0 (rowIdx i)) = YeoJohnson.kern _ _
  rw [row_apply, V_main_arg0]

/-- The run, read: the result array is the transform of the arguments, which are unchanged. -/
theorem run : θ_run defs (onTc (τ := τ) (main (F := F))) ⟨m, fun _ => 0, ρ⟩ fun r => ∀ c : Dev nD,
      r.2.mem ((c : Thread nD τ).loc main_v1)
        = YeoJohnson.whole (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final_args m c), (h c).2⟩) (run_blocks m ρ)

end Cert.KernelIdeal.Whole

end
-- ==== Proof.ReferenceArray.lean ====
/-
  The reference's result array. Its program is straight-line: the parameter vector is laid along every row, the sign
  test `x ≥ 0` picks between two branches computed for every entry, and each branch is itself a selection between a
  logarithm (at parameter `0`, respectively `2`) and a power minus one over the parameter (respectively over
  `2 −` parameter), with the unused input clamped to `0` and the vanishing divisor replaced by `1`. Read one
  operation at a time at an array index `(r, c)`, every stage is a scalar operation of the data entry `(r, c)` and the
  parameter entry `c`; composed, they are the two-branch spelling `YeoJohnson.ref` of those two entries.
-/
import proofs.«401256_j62053687493093_3_alg».proof.Proof.Gen.ReferenceIdeal.Read
import proofs.«401256_j62053687493093_3_alg».proof.Proof.YeoJohnson

noncomputable section

namespace Cert.ReferenceIdeal.Whole

open Cert.ReferenceIdeal Cert.ReferenceIdeal.Gen Cert.ReferenceIdeal.Read Idealize.ShloMosaic Idealize.ShloMosaic.TcCoe Idealize.SL.Sem

variable {F : FTy → Type} [FloatOps F]

/-- The parameter entry the broadcast reads at `(r, c)` is entry `c`. -/
theorem idx_col (i : S4096x16384.Idx) : idx_main_v0 i = YeoJohnson.col i :=
  funext fun a => Fin.ext (by match a with | ⟨0, _⟩ => rfl)

/-- The last stage of the reference is the two-branch spelling over the arrays. -/
theorem stage_eq (x0 : (⟨S4096x16384, .f32⟩ : BufTy).Contents (Elt F)) (x1 : (⟨S16384, .f32⟩ : BufTy).Contents (Elt F)) :
    val_main_v37 (F := F) x0 x1 = YeoJohnson.wholeRef x0 x1 := by
  funext i
  simp only [val_main_v37_apply, val_main_v36_apply, val_main_v35_apply, val_main_v34_apply, val_main_v33_apply, val_main_v32_apply, val_main_cst_12_apply, val_main_v31_apply, val_main_v30_apply, val_main_v29_apply, val_main_cst_11_apply, val_main_v28_apply, val_main_v27_apply, val_main_v26_apply, val_main_v25_apply, val_main_v24_apply, val_main_v23_apply, val_main_cst_10_apply, val_main_v22_apply, val_main_v21_apply, val_main_v20_apply, val_main_v19_apply, val_main_cst_9_apply, val_main_v18_apply, val_main_v17_apply, val_main_v16_apply, val_main_cst_8_apply, val_main_v15_apply, val_main_v14_apply, val_main_v13_apply, val_main_cst_7_apply, val_main_v12_apply, val_main_call3_v1_apply, val_main_call3_v0_apply, val_main_cst_6_apply, val_main_v11_apply, val_main_v10_apply, val_main_cst_5_apply, val_main_v9_apply, val_main_v8_apply, val_main_cst_4_apply, val_main_v7_apply, val_main_call2_v1_apply, val_main_call2_v0_apply, val_main_cst_3_apply, val_main_v6_apply, val_main_v5_apply, val_main_cst_2_apply, val_main_v4_apply, val_main_call1_v1_apply, val_main_call1_v0_apply, val_main_cst_1_apply, val_main_v3_apply, val_main_call0_v1_apply, val_main_call0_v0_apply, val_main_cst_0_apply, val_main_v2_apply, val_main_v1_apply, val_main_cst_apply, val_main_v0_apply, idx_col]
  rfl

end Cert.ReferenceIdeal.Whole

end
-- ==== Proof.FiniteInputs.lean ====
/-
  What the precondition says. `finite_inputs` is the conjunction of two `all`-reductions: `|x| < +∞` at every
  entry of the data, and the same at every entry of the parameters. On the extended reals `|x| = max x (−x)`, and
  the pattern `0x7F800000` is `⊤`; `max x (−x) < ⊤` fails exactly at `x = ⊤` and `x = ⊥`. So when the
  precondition is all ones, every entry of both arrays is a real number.
-/
import proofs.«401256_j62053687493093_3_alg».proof.Pre_finite_inputs
import Idealize.ShloMosaic.PureOps.Ideal
import Idealize.ShloMosaic.Lib.ReduceAll
import Idealize.ShloMosaic.Lib.Affine
import Idealize.ShloMosaic.Lib.ValueIdx

noncomputable section

namespace Cert.FiniteInputs

open Idealize.ShloMosaic Cert.Pre_finite_inputs

/-- An extended real whose absolute value is below `⊤` is a real. -/
theorem real_of_abs_lt_top (x : EReal) (h : max x (-x) < ⊤) : ∃ r : ℝ, x = (r : EReal) := by
  induction x using EReal.rec with
  | bot => simp at h
  | coe r => exact ⟨r, rfl⟩
  | top => simp at h

/-- The pattern `0x7F800000` is `+∞`. -/
theorem inf_eq : Ideal.ofBits .f32 0x7F800000#32 = ⊤ := by simp [Ideal.ofBits, Ideal.ieee]

/-- The element test `|x| < +∞`, as a word that is one, gives a real. -/
theorem real_of_word (x : EReal)
    (e : BitVec.ofBool (decide (max x (-x) < Ideal.ofBits .f32 0x7F800000#32)) = 1#1) : ∃ r : ℝ, x = (r : EReal) := by
  rw [inf_eq] at e
  refine real_of_abs_lt_top x ?_
  by_contra hn
  simp [hn] at e

instance : Subsingleton S_.Idx := ⟨fun a b => funext fun d => d.elim0⟩

variable [Facts]

/-- Under the precondition every entry of the data and of the parameters is a real. -/
theorem real_of_pre (X : FVec Ideal S4096x16384 .f32) (Y : FVec Ideal S16384 .f32)
    (h : fn (F := Ideal) X Y = fun _ => 1#1) :
    (∀ i, ∃ r : ℝ, X i = (r : EReal)) ∧ (∀ j, ∃ r : ℝ, Y j = (r : EReal)) := by
  have h0 := congrFun h ValueIdx.ix0
  dsimp only [fn] at h0
  obtain ⟨hX, hY⟩ := IntOp.andi_eq_one.1 h0
  constructor
  · intro i
    exact real_of_word (X i) (Host.reduce_andi_all _ _ _ _ _ hX i)
  · intro j
    exact real_of_word (Y j) (Host.reduce_andi_all _ _ _ _ _ hY j)

end Cert.FiniteInputs

end
-- ==== Proof.lean ====
/-
  The Yeo–Johnson power transform of a 4096 × 16384 array with one parameter per column: the kernel against its
  reference, over the extended reals.

  Both programs compute, at every entry `x` with its column's parameter `λ`,
      x ≥ 0 :  ((1 + x)^λ − 1) / λ   (log (1 + x) at λ = 0)         x < 0 :  −((1 − x)^(2−λ) − 1) / (2 − λ)   (−log (1 − x) at λ = 2).
  The kernel takes one logarithm `L = log1p |x|` and one exponential `exp (e · L)`, with `e = λ` or `2 − λ` by the
  sign of `x`, and restores the sign at the end; the reference computes both branches with a power and selects. The two
  agree because the base `1 + |x|` is positive, so its power is `exp (log (1 + |x|) · e)`; this uses that `x` and `λ`
  are real (at an infinite entry the power and the exponential follow different conventions), and that is what the
  precondition gives: `|x| < +∞` at every entry of both arrays.

  The pieces: Proof/YeoJohnson.lean — the two spellings as functions of one entry and one parameter, and the law between
  them at reals; Proof/KernelArray.lean — the kernel's result array is the one-logarithm spelling of the argument arrays
  (64 row blocks, each written once); Proof/ReferenceArray.lean — the reference's last stage is the two-branch spelling;
  Proof/FiniteInputs.lean — under the precondition every entry is a real. The three frames are the programs' runs with the
  result dropped; the idealization rewrote nothing, so there is nothing to preserve.
-/
import proofs.«401256_j62053687493093_3_alg».proof.Defs
import proofs.«401256_j62053687493093_3_alg».proof.Proof.Gen.Kernel
import proofs.«401256_j62053687493093_3_alg».proof.Proof.Gen.Kernel.Skeleton
import proofs.«401256_j62053687493093_3_alg».proof.Proof.Gen.Kernel.Launch
import proofs.«401256_j62053687493093_3_alg».proof.Proof.Gen.Kernel.Points
import proofs.«401256_j62053687493093_3_alg».proof.Proof.Gen.Kernel.Frame
import proofs.«401256_j62053687493093_3_alg».proof.Proof.Gen.KernelIdeal
import proofs.«401256_j62053687493093_3_alg».proof.Proof.Gen.KernelIdeal.Skeleton
import proofs.«401256_j62053687493093_3_alg».proof.Proof.Gen.KernelIdeal.Launch
import proofs.«401256_j62053687493093_3_alg».proof.Proof.Gen.KernelIdeal.Points
import proofs.«401256_j62053687493093_3_alg».proof.Proof.Gen.KernelIdeal.Frame
import proofs.«401256_j62053687493093_3_alg».proof.Proof.Gen.ReferenceIdeal
import proofs.«401256_j62053687493093_3_alg».proof.Proof.Gen.Pre_finite_inputs
import proofs.«401256_j62053687493093_3_alg».proof.Proof.Gen.KernelIdeal.Value
import proofs.«401256_j62053687493093_3_alg».proof.Proof.Gen.ReferenceIdeal.Run
import proofs.«401256_j62053687493093_3_alg».proof.Proof.Gen.ReferenceIdeal.Read
import proofs.«401256_j62053687493093_3_alg».proof.Proof.YeoJohnson
import proofs.«401256_j62053687493093_3_alg».proof.Proof.KernelArray
import proofs.«401256_j62053687493093_3_alg».proof.Proof.ReferenceArray
import proofs.«401256_j62053687493093_3_alg».proof.Proof.FiniteInputs
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Over the extended reals, from arguments that agree and are finite, the kernel's result array (the one-logarithm
    spelling of the arguments) and the reference's (the two-branch spelling) are one array: every entry is a real, and
    at reals the two spellings are the same transform. -/
theorem algebraic : Cert.algebraic_KernelIdeal_ReferenceIdeal := by
  intro m ρ m' ρ' hpre hagree
  refine ⟨_, Cert.KernelIdeal.Whole.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v37_eq, Cert.ReferenceIdeal.Whole.stage_eq, (hagree c).1, (hagree c).2]
  obtain ⟨hX, hY⟩ := Cert.FiniteInputs.real_of_pre _ _ (hpre c)
  exact Cert.YeoJohnson.wholeRef_eq_whole _ _ hX hY

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
